-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64x64 .f32) (main_arg19 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg14 : FVec F S64x64 .f32) (main_arg15 : FVec F S64 .f32) (main_arg16 : FVec F S64x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v13 : IVec S_ 1) (main_v16 : IVec S16384x16384 1) : IVec S_ 1 :=
  let main_c_5 : IVec S_ 1 := constantI S_ 1 1#1
  let main_v17 : IVec S_ 1 := (fun x v => Host.reduce IntOp.andi x v reducesTo_S16384x16384_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16384x64 .f32) (main_arg1 : FVec F S16384x64 .f32) (main_arg2 : FVec F S16384x64 .f32) (main_arg3 : FVec F S16384x16384 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384x16384 .f32 := Host.absf main_arg3
  let main_cst_4 : FVec F S_ .f32 := constant S_ .f32 0x7F800000#32
  let main_v15 : FVec F S16384x16384 .f32 := broadcastInDim S16384x16384 ![] bcast_S_S16384x16384 main_cst_4
  let main_v16 : IVec S16384x16384 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S128x16384 : Shape := ⟨2, ![128, 16384]⟩
abbrev S128x64 : Shape := ⟨2, ![128, 64]⟩
abbrev S1x64 : Shape := ⟨2, ![1, 64]⟩

abbrev nBuf : Space → Nat
  | .hbm => 22
  | .vmem => 27
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S16384x64, .f32⟩
  | .hbm, ⟨21, _⟩ => ⟨S16384x64, .f32⟩
  | .local _ .vmem, ⟨0, _⟩ => ⟨S128x16384, .f32⟩
  | .local _ .vmem, ⟨1, _⟩ => ⟨S128x16384, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S16384x64, .f32⟩
  | .local _ .vmem, ⟨7, _⟩ => ⟨S64x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S64x64, .f32⟩
  | .local _ .vmem, ⟨12, _⟩ => ⟨S64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S64, .f32⟩
  | .local _ .vmem, ⟨21, _⟩ => ⟨S64x64, .f32⟩
  | .local _ .vmem, ⟨22, _⟩ => ⟨S64, .f32⟩
  | .local _ .vmem, ⟨23, _⟩ => ⟨S128x64, .f32⟩
  | .local _ .vmem, ⟨24, _⟩ => ⟨S128x64, .f32⟩
  | .local _ .vmem, ⟨25, _⟩ => ⟨S128x64, .f32⟩
  | .local _ .vmem, ⟨26, _⟩ => ⟨S128x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S16384x64_S16384x64_0_0 : ∀ a, (![0, 0] : Fin 2 → Nat) a + S16384x64.size a ≤ S16384x64.size a
  h_S16384x64 : 0 < S16384x64.numel
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  dot_S128x16384_S16384x64_S128x64_1_0_0_1_n_n_wf : DotDims.WF S128x16384 S16384x64 S128x64 [1] [0] [0] [1] [] []
  dot_S128x64_S64x64_S128x64_1_1_0_0_n_n_wf : DotDims.WF S128x64 S64x64 S128x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .f32 = 32 ∨ (Rect.block (s := S16384x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .f32 = 32 ∨ (Rect.block (s := S16384x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S16384x64.size a
  hwx0_3 : ∀ i : grid0.Coords, EltTy.bits .f32 = 32 ∨ (Rect.block (s := S16384x64) S16384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x64.size a ≤ S64x64.size a
  hwx0_16 : ∀ i : grid0.Coords, EltTy.bits .f32 = 32 ∨ (Rect.block (s := S64x64) S64x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64.size a ≤ S64.size a
  hwx0_17 : ∀ i : grid0.Coords, EltTy.bits .f32 = 32 ∨ (Rect.block (s := S64) S64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x64.size a ≤ S64x64.size a
  hwx0_18 : ∀ i : grid0.Coords, EltTy.bits .f32 = 32 ∨ (Rect.block (s := S64x64) S64x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S128x64.size a ≤ S16384x64.size a
  hwx0_20 : ∀ i : grid0.Coords, EltTy.bits .f32 = 32 ∨ (Rect.block (s := S16384x64) S128x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S128x64.size a ≤ S16384x64.size a
  hwx0_21 : ∀ i : grid0.Coords, EltTy.bits .f32 = 32 ∨ (Rect.block (s := S16384x64) S128x64.size (cc0_transform_21 i) (hinb0_21 i)).WholeWords (EltTy.packing .f32)

variable [Facts₀]

def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf
def dot_S128x64_S64x64_S128x64_1_1_0_0_n_n : DotDims S128x64 S64x64 S128x64 where
  lhsContracting := [1]
  rhsContracting := [1]
  lhsNonContracting := [0]
  rhsNonContracting := [0]
  lhsBatch := []
  rhsBatch := []
  wf := dot_S128x64_S64x64_S128x64_1_1_0_0_n_n_wf

abbrev win0_0 : Pipeline.Window sig grid0 :=
  Pipeline.Window.ofSpec (Memref.whole main_arg3) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S64x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v0_0) S128x64.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v0_1) S128x64.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x16384, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S16384x64, .f32⟩
  | .hbm, ⟨21, _⟩ => ⟨S64x64, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S64x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S64x64, .f32⟩
  | .hbm, ⟨41, _⟩ => ⟨S16384x64, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S64x64, .f32⟩
  | .hbm, ⟨46, _⟩ => ⟨S16384x64, .f32⟩
  | .hbm, ⟨47, _⟩ => ⟨S1x64, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S64x64, .f32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S64x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S_, .f32⟩
  | .hbm, ⟨76, _⟩ => ⟨S16384x64, .f32⟩
  | .hbm, ⟨77, _⟩ => ⟨S16384x64, .f32⟩
  | .hbm, ⟨78, _⟩ => ⟨S64x64, .f32⟩
  | .hbm, ⟨79, _⟩ => ⟨S16384x64, .f32⟩
  | .hbm, ⟨80, _⟩ => ⟨S1x64, .f32⟩
  | .hbm, ⟨81, _⟩ => ⟨S16384x64, .f32⟩
  | .hbm, ⟨82, _⟩ => ⟨S16384x64, .f32⟩
  | .hbm, ⟨83, _⟩ => ⟨S64x64, .f32⟩
  | .hbm, ⟨84, _⟩ => ⟨S16384x64, .f32⟩
  | .hbm, ⟨85, _⟩ => ⟨S1x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S16384x64, .f32⟩
  | .hbm, ⟨92, _⟩ => ⟨S16384x64, .f32⟩
  | .hbm, ⟨93, _⟩ => ⟨S16384x64, .f32⟩
  | .hbm, ⟨94, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.Cell.lean ====
/-
  The arithmetic of one graph-convolution LSTM step, stated away from both programs.

  Notation: `N = 16384` nodes, `64` features. `adj` is the `N × N` adjacency, `hPrev` and `cPrev` the previous hidden
  and cell states, `x` the step's input, and for each of the four gates a pair of linear layers
  `(wx, bx)` on the input and `(wh, bh)` on the convolved state, a layer being `v ↦ v · wᵀ + b`.

    conv r k      = ∑ l, adj[r, l] · hPrev[l, k]                         (row `r` of `adj · hPrev`)
    pre_g r c     = (∑ k, x[r, k] · wx_g[c, k] + bx_g[c]) + (∑ k, conv r k · wh_g[c, k] + bh_g[c])
    cNew r c      = σ(pre_f r c) · cPrev[r, c] + σ(pre_i r c) · tanh(pre_c r c)
    hNew r c      = σ(pre_o r c) · tanh(cNew r c)

  Everything is over the extended reals: `σ` is `Ideal.logistic`, i.e. `1 / (1 + e^(-z))` with the conventions at the
  infinities, and `tanh` is `Ideal.tanh`. An entry `(r, c)` depends on row `r` of `x`, row `r` of `adj`, all of
  `hPrev`, the entry `(r, c)` of `cPrev` and row `c` of each weight matrix: the rows are independent, which is what lets
  a program compute them in blocks of rows.
-/
import Idealize.ShloMosaic.PureOps.Ideal
import Idealize.ShloMosaic.Lib.ValueIdx
import Idealize.ShloMosaic.Lib.IdealHost

noncomputable section

namespace Cert.GraphCell

open Idealize.ShloMosaic Idealize.ShloMosaic.ValueIdx
open scoped BigOperators

/-- A matrix of extended reals of literal extents `a × b`. -/
abbrev Mat (a b : ℕ) : Type := (⟨2, ![a, b]⟩ : Shape).Idx → EReal
/-- A vector of extended reals of literal length `a`. -/
abbrev Row (a : ℕ) : Type := (⟨1, ![a]⟩ : Shape).Idx → EReal

/-- One output feature `c` of a linear layer applied to a row `v`: `∑ k, v k · w[c, k] + b[c]`. -/
def affine (v : Fin 64 → EReal) (w : Mat 64 64) (b : Row 64) (c : Fin 64) : EReal :=
  (∑ k : Fin 64, v k * w (ix2 c k)) + b (ix1 c)

/-- A gate's pre-activation at feature `c`: the input row through `(wx, bx)` plus the convolved row through `(wh, bh)`. -/
def gatePre (xrow grow : Fin 64 → EReal) (wx : Mat 64 64) (bx : Row 64) (wh : Mat 64 64) (bh : Row 64) (c : Fin 64) : EReal :=
  affine xrow wx bx c + affine grow wh bh c

/-- The new cell state at feature `c` of one node, from the node's input row, its convolved row and its previous
    cell entry: forget gate times the previous entry plus input gate times the candidate. -/
def cellC (xrow grow : Fin 64 → EReal) (cprev : EReal)
    (wxi : Mat 64 64) (bxi : Row 64) (whi : Mat 64 64) (bhi : Row 64)
    (wxf : Mat 64 64) (bxf : Row 64) (whf : Mat 64 64) (bhf : Row 64)
    (wxc : Mat 64 64) (bxc : Row 64) (whc : Mat 64 64) (bhc : Row 64) (c : Fin 64) : EReal :=
  Ideal.logistic (gatePre xrow grow wxf bxf whf bhf c) * cprev
    + Ideal.logistic (gatePre xrow grow wxi bxi whi bhi c) * Ideal.tanh (gatePre xrow grow wxc bxc whc bhc c)

/-- The new hidden state at feature `c` of one node: output gate times `tanh` of the new cell state. -/
def cellH (xrow grow : Fin 64 → EReal) (cprev : EReal)
    (wxi : Mat 64 64) (bxi : Row 64) (whi : Mat 64 64) (bhi : Row 64)
    (wxf : Mat 64 64) (bxf : Row 64) (whf : Mat 64 64) (bhf : Row 64)
    (wxo : Mat 64 64) (bxo : Row 64) (who : Mat 64 64) (bho : Row 64)
    (wxc : Mat 64 64) (bxc : Row 64) (whc : Mat 64 64) (bhc : Row 64) (c : Fin 64) : EReal :=
  Ideal.logistic (gatePre xrow grow wxo bxo who bho c)
    * Ideal.tanh (cellC xrow grow cprev wxi bxi whi bhi wxf bxf whf bhf wxc bxc whc bhc c)

/-- Row `r` of the graph convolution `adj · hPrev`, at feature `k`. -/
def conv (adj : Mat 16384 16384) (hPrev : Mat 16384 64) (r : Fin 16384) (k : Fin 64) : EReal :=
  ∑ l : Fin 16384, adj (ix2 r l) * hPrev (ix2 l k)

/-- The new cell state of node `r` at feature `c`, from the whole argument arrays. -/
def newCAt (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxc : Mat 64 64) (bxc : Row 64) (whc : Mat 64 64) (bhc : Row 64) (r : Fin 16384) (c : Fin 64) : EReal :=
  cellC (fun k => x (ix2 r k)) (conv adj hPrev r) (cPrev (ix2 r c)) wxi bxi whi bhi wxf bxf whf bhf wxc bxc whc bhc c

/-- The new hidden state of node `r` at feature `c`, from the whole argument arrays. -/
def newHAt (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxo : Mat 64 64) (bxo : Row 64) (who : Mat 64 64) (bho : Row 64)
    (wxc : Mat 64 64) (bxc : Row 64) (whc : Mat 64 64) (bhc : Row 64) (r : Fin 16384) (c : Fin 64) : EReal :=
  cellH (fun k => x (ix2 r k)) (conv adj hPrev r) (cPrev (ix2 r c)) wxi bxi whi bhi wxf bxf whf bhf wxo bxo who bho
    wxc bxc whc bhc c

/-- The new cell state as one `N × 64` array. -/
def newC (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxc : Mat 64 64) (bxc : Row 64) (whc : Mat 64 64) (bhc : Row 64) : Mat 16384 64 := fun i =>
  newCAt x hPrev cPrev adj wxi bxi whi bhi wxf bxf whf bhf wxc bxc whc bhc (i 0) (i 1)

/-- The new hidden state as one `N × 64` array. -/
def newH (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxo : Mat 64 64) (bxo : Row 64) (who : Mat 64 64) (bho : Row 64)
    (wxc : Mat 64 64) (bxc : Row 64) (whc : Mat 64 64) (bhc : Row 64) : Mat 16384 64 := fun i =>
  newHAt x hPrev cPrev adj wxi bxi whi bhi wxf bxf whf bhf wxo bxo who bho wxc bxc whc bhc (i 0) (i 1)

/-- The sigmoid written out with the word of `1.0`, `1 / (1 + e^(-z))`, is the logistic function on every extended
    real: the word denotes one, and the rest is the function's definition. -/
theorem logistic_expanded (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [Ideal.ofBits_one_f32]
  rfl

end Cert.GraphCell

end
-- ==== Proof.RefRead.lean ====
/-
  The reference program read at an entry.

  The reference computes, on whole `16384 × 64` arrays, the graph convolution `adj · hPrev` once, eight linear layers
  `v · wᵀ + b` (a transpose, a product contracting the last axis, a broadcast bias), three sigmoids spelt
  `1 / (1 + e^(-z))`, two `tanh`, and the gating products. Every one of these acts on a row independently, so at the
  entry `(r, c)` its two results are the cell functions `newCAt` and `newHAt` of row `r` of the inputs.

  The four input-side layers are one function at four pairs of arguments, and so are the four state-side layers, the
  three sigmoid gates and their pre-activations: each family is read once, on its first member, and the others are
  that member at other arguments, by unfolding.
-/
import proofs.«128617_j68436008895010_1_alg».proof.Proof.Gen.ReferenceIdeal.Read
import proofs.«128617_j68436008895010_1_alg».proof.Proof.Cell

noncomputable section

namespace Cert.GraphCell.Ref

open Cert.ReferenceIdeal Cert.ReferenceIdeal.Read Cert.GraphCell
open Idealize.ShloMosaic Idealize.ShloMosaic.ValueIdx
open scoped BigOperators

/-- The convolution stage at `(r, k)` is row `r` of `adj` against column `k` of `hPrev`. -/
theorem conv_at (hPrev : Mat 16384 64) (adj : Mat 16384 16384) (r : Fin 16384) (k : Fin 64) :
    val_main_v0 (F := Ideal) hPrev adj (ix2 r k) = conv adj hPrev r k := by
  rw [val_main_v0_apply]
  unfold conv
  refine Finset.sum_congr rfl fun l _ => ?_
  have el : lidx_main_v0 (ix2 r k) l = ix2 r l := funext fun a => by
    match a with
    | ⟨0, _⟩ => rfl
    | ⟨1, _⟩ => rfl
  have er : ridx_main_v0 (ix2 r k) l = ix2 l k := funext fun a => by
    match a with
    | ⟨0, _⟩ => rfl
    | ⟨1, _⟩ => rfl
  rw [el, er]

/-- A linear layer of the reference at `(r, c)`: the product with the transposed weight contracts row `r` of the
    operand against ROW `c` of the weight, and the bias, broadcast along the rows, is read at `c`. -/
theorem affine_at (v : Mat 16384 64) (w : Mat 64 64) (b : Row 64) (r : Fin 16384) (c : Fin 64) :
    val_main_v5 (F := Ideal) v w b (ix2 r c) = affine (fun k => v (ix2 r k)) w b c := by
  rw [val_main_v5_apply, val_main_v2_apply, val_main_v4_apply, val_main_v3_apply]
  unfold affine
  have el : ∀ k : Fin 64, lidx_main_v2 (ix2 r c) k = ix2 r k := fun k => funext fun a => by
    match a with
    | ⟨0, _⟩ => rfl
    | ⟨1, _⟩ => rfl
  have er : ∀ k : Fin 64, idx_main_v1 (ridx_main_v2 (ix2 r c) k) = ix2 c k := fun k => funext fun a => by
    match a with
    | ⟨0, _⟩ => rfl
    | ⟨1, _⟩ => rfl
  have eb : idx_main_v3 (idx_main_v4 (ix2 r c)) = ix1 c := funext fun a => by
    match a with
    | ⟨0, _⟩ => rfl
  simp only [val_main_v1_apply, el, er, eb]
  rfl

/-- A gate's pre-activation at `(r, c)`: the input-side layer on `x` plus the state-side layer on the convolution. -/
theorem pre_at (x hPrev : Mat 16384 64) (adj : Mat 16384 16384) (wx : Mat 64 64) (bx : Row 64) (wh : Mat 64 64) (bh : Row 64)
    (r : Fin 16384) (c : Fin 64) :
    val_main_v11 (F := Ideal) x hPrev adj wx bx wh bh (ix2 r c)
      = gatePre (fun k => x (ix2 r k)) (conv adj hPrev r) wx bx wh bh c := by
  rw [val_main_v11_apply, affine_at]
  -- the state-side layer is the same layer, applied to the convolution stage
  show FloatOps.addf (F := Ideal) (φ := .f32) _ (val_main_v5 (F := Ideal) (val_main_v0 (F := Ideal) hPrev adj) wh bh (ix2 r c)) = _
  rw [affine_at]
  unfold gatePre
  simp only [conv_at]
  rfl

/-- A sigmoid gate at `(r, c)`: `1 / (1 + e^(-pre))` is the logistic function of the pre-activation. -/
theorem sigmoid_at (x hPrev : Mat 16384 64) (adj : Mat 16384 16384) (wx : Mat 64 64) (bx : Row 64) (wh : Mat 64 64) (bh : Row 64)
    (r : Fin 16384) (c : Fin 64) :
    val_main_v17 (F := Ideal) x hPrev adj wx bx wh bh (ix2 r c)
      = Ideal.logistic (gatePre (fun k => x (ix2 r k)) (conv adj hPrev r) wx bx wh bh c) := by
  rw [val_main_v17_apply, val_main_v16_apply, val_main_cst_0_apply, val_main_v15_apply, val_main_v14_apply,
    val_main_cst_apply, val_main_v13_apply, val_main_v12_apply, pre_at]
  exact logistic_expanded _

/-- The candidate at `(r, c)`: `tanh` of its pre-activation. -/
theorem candidate_at (x hPrev : Mat 16384 64) (adj : Mat 16384 16384) (wx : Mat 64 64) (bx : Row 64) (wh : Mat 64 64) (bh : Row 64)
    (r : Fin 16384) (c : Fin 64) :
    val_main_v63 (F := Ideal) x hPrev adj wx bx wh bh (ix2 r c)
      = Ideal.tanh (gatePre (fun k => x (ix2 r k)) (conv adj hPrev r) wx bx wh bh c) := by
  rw [val_main_v63_apply]
  -- its pre-activation is the gates' pre-activation at the candidate's weights
  show FloatOps.hostUnary (F := Ideal) (φ := .f32) .tanh (val_main_v11 (F := Ideal) x hPrev adj wx bx wh bh (ix2 r c)) = _
  rw [pre_at]
  rfl

/-- THE REFERENCE'S CELL STATE is `newC` of its arguments. -/
theorem cell_eq (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxc : Mat 64 64) (bxc : Row 64) (whc : Mat 64 64) (bhc : Row 64) :
    val_main_v66 (F := Ideal) x hPrev cPrev adj wxi bxi whi bhi wxf bxf whf bhf wxc bxc whc bhc
      = newC x hPrev cPrev adj wxi bxi whi bhi wxf bxf whf bhf wxc bxc whc bhc := by
  funext i
  obtain ⟨r, c, rfl⟩ : ∃ (r : Fin 16384) (c : Fin 64), i = ix2 r c := ⟨i 0, i 1, eq_ix2 i⟩
  rw [val_main_v66_apply, val_main_v64_apply, val_main_v65_apply, sigmoid_at, candidate_at]
  -- the forget gate is the sigmoid gate at the forget weights
  show FloatOps.addf (F := Ideal) (φ := .f32) (FloatOps.mulf (F := Ideal) (φ := .f32) (val_main_v17 (F := Ideal) x hPrev adj wxf bxf whf bhf (ix2 r c)) (cPrev (ix2 r c))) _ = _
  rw [sigmoid_at]
  rfl

/-- THE REFERENCE'S HIDDEN STATE is `newH` of its arguments. -/
theorem hidden_eq (x hPrev cPrev : Mat 16384 64) (adj : Mat 16384 16384)
    (wxi : Mat 64 64) (bxi : Row 64) (whi : Mat 64 64) (bhi : Row 64)
    (wxf : Mat 64 64) (bxf : Row 64) (whf : Mat 64 64) (bhf : Row 64)
    (wxo : Mat 64 64) (bxo : Row 64) (who : Mat 64 64) (bho : Row 64)
    (wxc : Mat 64 64) (bxc : Row 64) (whc : Mat 64 64) (bhc : Row 64) :
    val_main_v68 (F := Ideal) x hPrev cPrev adj wxi bxi whi bhi wxf bxf whf bhf wxo bxo who bho wxc bxc whc bhc
      = newH x hPrev cPrev adj wxi bxi whi bhi wxf bxf whf bhf wxo bxo who bho wxc bxc whc bhc := by
  funext i
  obtain ⟨r, c, rfl⟩ : ∃ (r : Fin 16384) (c : Fin 64), i = ix2 r c := ⟨i 0, i 1, eq_ix2 i⟩
  rw [val_main_v68_apply, val_main_v67_apply, cell_eq]
  -- the output gate is the sigmoid gate at the output weights
  show FloatOps.mulf (F := Ideal) (φ := .f32) (val_main_v17 (F := Ideal) x hPrev adj wxo bxo who bho (ix2 r c)) _ = _
  rw [sigmoid_at]
  rfl

end Cert.GraphCell.Ref

end
-- ==== Proof.Payload.lean ====
/-
  The kernel's body read at an entry of its block of rows.

  At one grid point the body holds a block of 128 rows of `adj` (128 × 16384), of the input `x` and of the
  previous cell state (128 × 64 each), and the whole of `hPrev` and of the weights. It forms the block's rows of the
  graph convolution by one matrix product, then eight linear layers — a matrix product that contracts the LAST axis of
  both operands, so no transpose is formed, plus a bias re-laid from `[64]` to `[1, 64]` and repeated over the rows —,
  the sigmoids, the `tanh`s and the gating products. Over the extended reals a narrowing of the float format is the
  identity and a product into a zero accumulator is the plain sum, so at the entry `(p, q)` of the block the two
  stored values are the cell functions `cellC` and `cellH` of row `p` of the block.
-/
import proofs.«128617_j68436008895010_1_alg».proof.Proof.Gen.KernelIdeal.Skeleton
import proofs.«128617_j68436008895010_1_alg».proof.Proof.Cell
import Idealize.ShloMosaic.PureOps.Ideal.Laws
import Idealize.ShloMosaic.Lib.ValueLayout
import Idealize.ShloMosaic.Lib.Pipeline.Value

noncomputable section

namespace Cert.GraphCell.Body

open Cert.KernelIdeal Cert.KernelIdeal.Gen Cert.GraphCell
open Idealize.ShloMosaic Idealize.ShloMosaic.ValueIdx
open scoped BigOperators

/-! ## The two matrix products at an entry -/

theorem conv_lhs_0 (i : S128x64.Idx) (s : dot_S128x16384_S16384x64_S128x64_1_0_0_1_n_n.contr.Idx) :
    (dot_S128x16384_S16384x64_S128x64_1_0_0_1_n_n.lhsIdx i s 0).val = (i 0).val := by
  unfold DotDims.lhsIdx
  rw [dif_neg (show ¬(0 : Fin S128x16384.rank) ∈ dot_S128x16384_S16384x64_S128x64_1_0_0_1_n_n.lhsBatch by decide), dif_pos (show (0 : Fin S128x16384.rank) ∈ dot_S128x16384_S16384x64_S128x64_1_0_0_1_n_n.lhsNonContracting by decide)]
  rfl
theorem conv_lhs_1 (i : S128x64.Idx) (s : dot_S128x16384_S16384x64_S128x64_1_0_0_1_n_n.contr.Idx) :
    (dot_S128x16384_S16384x64_S128x64_1_0_0_1_n_n.lhsIdx i s 1).val = (s ⟨0, by decide⟩).val :=
  dot_S128x16384_S16384x64_S128x64_1_0_0_1_n_n.lhsIdx_val_of_single rfl i s
theorem conv_rhs_0 (i : S128x64.Idx) (s : dot_S128x16384_S16384x64_S128x64_1_0_0_1_n_n.contr.Idx) :
    (dot_S128x16384_S16384x64_S128x64_1_0_0_1_n_n.rhsIdx i s 0).val = (s ⟨0, by decide⟩).val :=
  dot_S128x16384_S16384x64_S128x64_1_0_0_1_n_n.rhsIdx_val_of_single rfl i s
theorem conv_rhs_1 (i : S128x64.Idx) (s : dot_S128x16384_S16384x64_S128x64_1_0_0_1_n_n.contr.Idx) :
    (dot_S128x16384_S16384x64_S128x64_1_0_0_1_n_n.rhsIdx i s 1).val = (i 1).val := by
  unfold DotDims.rhsIdx
  rw [dif_neg (show ¬(1 : Fin S16384x64.rank) ∈ dot_S128x16384_S16384x64_S128x64_1_0_0_1_n_n.rhsBatch by decide), dif_pos (show (1 : Fin S16384x64.rank) ∈ dot_S128x16384_S16384x64_S128x64_1_0_0_1_n_n.rhsNonContracting by decide)]
  rfl

/-- The block's rows of the convolution: entry `(p, k)` is row `p` of the block of `adj` against column `k` of
    `hPrev`. -/
theorem conv_block_at (a : FVec Ideal S128x16384 .f32) (h : FVec Ideal S16384x64 .f32) (p : Fin 128) (k : Fin 64) :
    k0_pay3 (F := Ideal) a h (ix2 p k) = ∑ l : Fin 16384, a (ix2 p l) * h (ix2 l k) := by
  unfold k0_pay3
  simp only [matmul]
  rw [Ideal.matmul_constant_zero_apply, ← Equiv.sum_comp (contrEquiv1 dot_S128x16384_S16384x64_S128x64_1_0_0_1_n_n 16384 rfl rfl).symm]
  refine Finset.sum_congr rfl fun l _ => ?_
  have hl := contrEquiv1_symm_val dot_S128x16384_S16384x64_S128x64_1_0_0_1_n_n 16384 rfl rfl l
  have el : dot_S128x16384_S16384x64_S128x64_1_0_0_1_n_n.lhsIdx (ix2 p k) ((contrEquiv1 dot_S128x16384_S16384x64_S128x64_1_0_0_1_n_n 16384 rfl rfl).symm l) = ix2 p l := funext fun ax => Fin.ext (by
    match ax with
    | ⟨0, _⟩ => exact conv_lhs_0 _ _
    | ⟨1, _⟩ => exact (conv_lhs_1 _ _).trans hl)
  have er : dot_S128x16384_S16384x64_S128x64_1_0_0_1_n_n.rhsIdx (ix2 p k) ((contrEquiv1 dot_S128x16384_S16384x64_S128x64_1_0_0_1_n_n 16384 rfl rfl).symm l) = ix2 l k := funext fun ax => Fin.ext (by
    match ax with
    | ⟨0, _⟩ => exact (conv_rhs_0 _ _).trans hl
    | ⟨1, _⟩ => exact conv_rhs_1 _ _)
  rw [el, er]
  rfl

theorem layer_lhs_0 (i : S128x64.Idx) (s : dot_S128x64_S64x64_S128x64_1_1_0_0_n_n.contr.Idx) :
    (dot_S128x64_S64x64_S128x64_1_1_0_0_n_n.lhsIdx i s 0).val = (i 0).val := by
  unfold DotDims.lhsIdx
  rw [dif_neg (show ¬(0 : Fin S128x64.rank) ∈ dot_S128x64_S64x64_S128x64_1_1_0_0_n_n.lhsBatch by decide), dif_pos (show (0 : Fin S128x64.rank) ∈ dot_S128x64_S64x64_S128x64_1_1_0_0_n_n.lhsNonContracting by decide)]
  rfl
theorem layer_lhs_1 (i : S128x64.Idx) (s : dot_S128x64_S64x64_S128x64_1_1_0_0_n_n.contr.Idx) :
    (dot_S128x64_S64x64_S128x64_1_1_0_0_n_n.lhsIdx i s 1).val = (s ⟨0, by decide⟩).val :=
  dot_S128x64_S64x64_S128x64_1_1_0_0_n_n.lhsIdx_val_of_single rfl i s
theorem layer_rhs_0 (i : S128x64.Idx) (s : dot_S128x64_S64x64_S128x64_1_1_0_0_n_n.contr.Idx) :
    (dot_S128x64_S64x64_S128x64_1_1_0_0_n_n.rhsIdx i s 0).val = (i 1).val := by
  unfold DotDims.rhsIdx
  rw [dif_neg (show ¬(0 : Fin S64x64.rank) ∈ dot_S128x64_S64x64_S128x64_1_1_0_0_n_n.rhsBatch by decide), dif_pos (show (0 : Fin S64x64.rank) ∈ dot_S128x64_S64x64_S128x64_1_1_0_0_n_n.rhsNonContracting by decide)]
  rfl
theorem layer_rhs_1 (i : S128x64.Idx) (s : dot_S128x64_S64x64_S128x64_1_1_0_0_n_n.contr.Idx) :
    (dot_S128x64_S64x64_S128x64_1_1_0_0_n_n.rhsIdx i s 1).val = (s ⟨0, by decide⟩).val :=
  dot_S128x64_S64x64_S128x64_1_1_0_0_n_n.rhsIdx_val_of_single rfl i s

/-- A layer's product at `(p, q)`: row `p` of the operand against ROW `q` of the weight — both contracted on their last
    axis —, whatever float formats the two operands were narrowed to. -/
theorem layer_product_at {φ ψ : FTy} (v : FVec Ideal S128x64 φ) (w : FVec Ideal S64x64 ψ) (p : Fin 128) (q : Fin 64) :
    matmul dot_S128x64_S64x64_S128x64_1_1_0_0_n_n none v w (constant (F := Ideal) S128x64 .f32 0x00000000#32) (ix2 p q)
      = ∑ k : Fin 64, v (ix2 p k) * w (ix2 q k) := by
  simp only [matmul]
  rw [Ideal.matmul_constant_zero_apply, ← Equiv.sum_comp (contrEquiv1 dot_S128x64_S64x64_S128x64_1_1_0_0_n_n 64 rfl rfl).symm]
  refine Finset.sum_congr rfl fun k _ => ?_
  have hk := contrEquiv1_symm_val dot_S128x64_S64x64_S128x64_1_1_0_0_n_n 64 rfl rfl k
  have el : dot_S128x64_S64x64_S128x64_1_1_0_0_n_n.lhsIdx (ix2 p q) ((contrEquiv1 dot_S128x64_S64x64_S128x64_1_1_0_0_n_n 64 rfl rfl).symm k) = ix2 p k := funext fun ax => Fin.ext (by
    match ax with
    | ⟨0, _⟩ => exact layer_lhs_0 _ _
    | ⟨1, _⟩ => exact (layer_lhs_1 _ _).trans hk)
  have er : dot_S128x64_S64x64_S128x64_1_1_0_0_n_n.rhsIdx (ix2 p q) ((contrEquiv1 dot_S128x64_S64x64_S128x64_1_1_0_0_n_n 64 rfl rfl).symm k) = ix2 q k := funext fun ax => Fin.ext (by
    match ax with
    | ⟨0, _⟩ => exact layer_rhs_0 _ _
    | ⟨1, _⟩ => exact (layer_rhs_1 _ _).trans hk)
  rw [el, er]

/-- The bias, re-laid from `[64]` to `[1, 64]` and repeated over the 128 rows, read at `(p, q)` is its entry `q`. -/
theorem bias_at (b : FVec Ideal S64 .f32) (p : Fin 128) (q : Fin 64) :
    broadcastTo S128x64 (shapeCast S1x64 b shapeCasts_S64_S1x64) broadcasts_S1x64_S128x64 (ix2 p q) = b (ix1 q) :=
  (broadcastTo_1b_ab_apply (shapeCast S1x64 b shapeCasts_S64_S1x64) broadcasts_S1x64_S128x64 p q).trans
    (shapeCast_a_1a_apply b shapeCasts_S64_S1x64 (0 : Fin 1) q)

/-- One linear layer of the body at `(p, q)`. -/
theorem layer_at {φ ψ : FTy} (v : FVec Ideal S128x64 φ) (w : FVec Ideal S64x64 ψ) (b : FVec Ideal S64 .f32) (p : Fin 128) (q : Fin 64) :
    matmul dot_S128x64_S64x64_S128x64_1_1_0_0_n_n none v w (constant (F := Ideal) S128x64 .f32 0x00000000#32) (ix2 p q)
        + broadcastTo S128x64 (shapeCast S1x64 b shapeCasts_S64_S1x64) broadcasts_S1x64_S128x64 (ix2 p q)
      = affine (fun k => v (ix2 p k)) w b q := by
  rw [layer_product_at, bias_at]
  rfl

/-! ## The gates at an entry

`xb` is the block of the input, `g` the block's rows of the convolution (any `128 × 64` vector here). -/

/-- A gate's pre-activation at `(p, q)`. -/
theorem pre_at (xb g : FVec Ideal S128x64 .f32) (wx : FVec Ideal S64x64 .f32) (bx : FVec Ideal S64 .f32)
    (wh : FVec Ideal S64x64 .f32) (bh : FVec Ideal S64 .f32) (p : Fin 128) (q : Fin 64) :
    (matmul dot_S128x64_S64x64_S128x64_1_1_0_0_n_n none (truncf .bf16 xb bitsLt_bf16_f32) (truncf .bf16 wx bitsLt_bf16_f32) (constant (F := Ideal) S128x64 .f32 0x00000000#32) (ix2 p q)
        + broadcastTo S128x64 (shapeCast S1x64 bx shapeCasts_S64_S1x64) broadcasts_S1x64_S128x64 (ix2 p q))
      + (matmul dot_S128x64_S64x64_S128x64_1_1_0_0_n_n none (truncf .bf16 g bitsLt_bf16_f32) (truncf .bf16 wh bitsLt_bf16_f32) (constant (F := Ideal) S128x64 .f32 0x00000000#32) (ix2 p q)
        + broadcastTo S128x64 (shapeCast S1x64 bh shapeCasts_S64_S1x64) broadcasts_S1x64_S128x64 (ix2 p q))
      = gatePre (fun k => xb (ix2 p k)) (fun k => g (ix2 p k)) wx bx wh bh q := by
  rw [layer_at, layer_at]
  rfl

/-- The input gate. -/
theorem input_gate_at (a : FVec Ideal S128x16384 .f32) (h : FVec Ideal S16384x64 .f32) (xb : FVec Ideal S128x64 .f32)
    (wx : FVec Ideal S64x64 .f32) (bx : FVec Ideal S64 .f32) (wh : FVec Ideal S64x64 .f32) (bh : FVec Ideal S64 .f32)
    (p : Fin 128) (q : Fin 64) :
    k0_pay4 (F := Ideal) a h xb wx bx wh bh (ix2 p q)
      = Ideal.logistic (gatePre (fun k => xb (ix2 p k)) (fun k => k0_pay3 (F := Ideal) a h (ix2 p k)) wx bx wh bh q) :=
  congrArg Ideal.logistic (pre_at xb (k0_pay3 (F := Ideal) a h) wx bx wh bh p q)

/-- The forget gate (its input-side layer is formed in the body's first part, its state-side layer in the second). -/
theorem forget_gate_at (a : FVec Ideal S128x16384 .f32) (h : FVec Ideal S16384x64 .f32) (xb : FVec Ideal S128x64 .f32)
    (wx : FVec Ideal S64x64 .f32) (bx : FVec Ideal S64 .f32) (wh : FVec Ideal S64x64 .f32) (bh : FVec Ideal S64 .f32)
    (p : Fin 128) (q : Fin 64) :
    k0_pay8 (F := Ideal) (k0_pay5 (F := Ideal) xb wx bx) (k0_pay6 (F := Ideal) wh) (k0_pay7 (F := Ideal) a h) bh (ix2 p q)
      = Ideal.logistic (gatePre (fun k => xb (ix2 p k)) (fun k => k0_pay3 (F := Ideal) a h (ix2 p k)) wx bx wh bh q) :=
  congrArg Ideal.logistic (pre_at xb (k0_pay3 (F := Ideal) a h) wx bx wh bh p q)

/-- The output gate. -/
theorem output_gate_at (g xb : FVec Ideal S128x64 .f32)
    (wx : FVec Ideal S64x64 .f32) (bx : FVec Ideal S64 .f32) (wh : FVec Ideal S64x64 .f32) (bh : FVec Ideal S64 .f32)
    (p : Fin 128) (q : Fin 64) :
    k0_pay9 (F := Ideal) g xb wx bx wh bh (ix2 p q)
      = Ideal.logistic (gatePre (fun k => xb (ix2 p k)) (fun k => g (ix2 p k)) wx bx wh bh q) :=
  congrArg Ideal.logistic (pre_at xb g wx bx wh bh p q)

/-- The candidate's pre-activation. -/
theorem candidate_pre_at (g xb : FVec Ideal S128x64 .f32)
    (wx : FVec Ideal S64x64 .f32) (bx : FVec Ideal S64 .f32) (wh : FVec Ideal S64x64 .f32) (bh : FVec Ideal S64 .f32)
    (p : Fin 128) (q : Fin 64) :
    k0_pay10 (F := Ideal) g xb wx bx wh bh (ix2 p q)
      = gatePre (fun k => xb (ix2 p k)) (fun k => g (ix2 p k)) wx bx wh bh q :=
  pre_at xb g wx bx wh bh p q

/-! ## The two stored values at an entry -/

/-- THE CELL STATE the body stores, at `(p, q)` of the block. -/
theorem cell_at (a : FVec Ideal S128x16384 .f32) (xb cb : FVec Ideal S128x64 .f32) (h : FVec Ideal S16384x64 .f32)
    (wxi : FVec Ideal S64x64 .f32) (bxi : FVec Ideal S64 .f32) (whi : FVec Ideal S64x64 .f32) (bhi : FVec Ideal S64 .f32)
    (wxf : FVec Ideal S64x64 .f32) (bxf : FVec Ideal S64 .f32) (whf : FVec Ideal S64x64 .f32) (bhf : FVec Ideal S64 .f32)
    (wxc : FVec Ideal S64x64 .f32) (bxc : FVec Ideal S64 .f32) (whc : FVec Ideal S64x64 .f32) (bhc : FVec Ideal S64 .f32)
    (p : Fin 128) (q : Fin 64) :
    k0_pay1 (F := Ideal) cb (k0_pay4 (F := Ideal) a h xb wxi bxi whi bhi)
        (k0_pay8 (F := Ideal) (k0_pay5 (F := Ideal) xb wxf bxf) (k0_pay6 (F := Ideal) whf) (k0_pay7 (F := Ideal) a h) bhf)
        (k0_pay10 (F := Ideal) (k0_pay3 (F := Ideal) a h) xb wxc bxc whc bhc) (ix2 p q)
      = cellC (fun k => xb (ix2 p k)) (fun k => ∑ l : Fin 16384, a (ix2 p l) * h (ix2 l k)) (cb (ix2 p q))
          wxi bxi whi bhi wxf bxf whf bhf wxc bxc whc bhc q := by
  have hg : (fun k : Fin 64 => k0_pay3 (F := Ideal) a h (ix2 p k)) = fun k => ∑ l : Fin 16384, a (ix2 p l) * h (ix2 l k) :=
    funext fun k => conv_block_at a h p k
  rw [← hg]
  unfold cellC
  exact congrArg₂ (· + ·)
    (congrArg (· * cb (ix2 p q)) (forget_gate_at a h xb wxf bxf whf bhf p q))
    (congrArg₂ (· * ·) (input_gate_at a h xb wxi bxi whi bhi p q)
      (congrArg Ideal.tanh (candidate_pre_at (k0_pay3 (F := Ideal) a h) xb wxc bxc whc bhc p q)))

/-- THE HIDDEN STATE the body stores, at `(p, q)` of the block. -/
theorem hidden_at (a : FVec Ideal S128x16384 .f32) (xb cb : FVec Ideal S128x64 .f32) (h : FVec Ideal S16384x64 .f32)
    (wxi : FVec Ideal S64x64 .f32) (bxi : FVec Ideal S64 .f32) (whi : FVec Ideal S64x64 .f32) (bhi : FVec Ideal S64 .f32)
    (wxf : FVec Ideal S64x64 .f32) (bxf : FVec Ideal S64 .f32) (whf : FVec Ideal S64x64 .f32) (bhf : FVec Ideal S64 .f32)
    (wxo : FVec Ideal S64x64 .f32) (bxo : FVec Ideal S64 .f32) (who : FVec Ideal S64x64 .f32) (bho : FVec Ideal S64 .f32)
    (wxc : FVec Ideal S64x64 .f32) (bxc : FVec Ideal S64 .f32) (whc : FVec Ideal S64x64 .f32) (bhc : FVec Ideal S64 .f32)
    (p : Fin 128) (q : Fin 64) :
    k0_pay2 (F := Ideal) cb (k0_pay4 (F := Ideal) a h xb wxi bxi whi bhi)
        (k0_pay8 (F := Ideal) (k0_pay5 (F := Ideal) xb wxf bxf) (k0_pay6 (F := Ideal) whf) (k0_pay7 (F := Ideal) a h) bhf)
        (k0_pay9 (F := Ideal) (k0_pay3 (F := Ideal) a h) xb wxo bxo who bho)
        (k0_pay10 (F := Ideal) (k0_pay3 (F := Ideal) a h) xb wxc bxc whc bhc) (ix2 p q)
      = cellH (fun k => xb (ix2 p k)) (fun k => ∑ l : Fin 16384, a (ix2 p l) * h (ix2 l k)) (cb (ix2 p q))
          wxi bxi whi bhi wxf bxf whf bhf wxo bxo who bho wxc bxc whc bhc q := by
  unfold cellH
  refine congrArg₂ (· * ·) ?_ (congrArg Ideal.tanh (cell_at a xb cb h wxi bxi whi bhi wxf bxf whf bhf wxc bxc whc bhc p q))
  have hg : (fun k : Fin 64 => k0_pay3 (F := Ideal) a h (ix2 p k)) = fun k => ∑ l : Fin 16384, a (ix2 p l) * h (ix2 l k) :=
    funext fun k => conv_block_at a h p k
  rw [← hg]
  exact output_gate_at (k0_pay3 (F := Ideal) a h) xb wxo bxo who bho p q

end Cert.GraphCell.Body

end
-- ==== Proof.WholeFirst.lean ====
/-
  The weights are staged whole.

  Every weight matrix and bias of the eight linear layers is small enough to sit in the body's memory entire: its window's
  block is the whole array, at block index `0` at every one of the 128 grid points. So what the body finds in such a
  window at any point is the argument array itself. Proved here for the first weight matrix (window 4, `64 × 64`) and the
  first bias (window 5, length `64`); the other fourteen windows are these two lemmas at other window numbers.
-/
import proofs.«128617_j68436008895010_1_alg».proof.Proof.Gen.KernelIdeal.Frame
import Idealize.ShloMosaic.PureOps.Ideal

noncomputable section

namespace Cert.GraphCell.Run

open Cert.KernelIdeal Cert.KernelIdeal.Gen
open Idealize.ShloMosaic Idealize.ShloMosaic.TcCoe Idealize.SL.Sem

variable (m : (ℓ : Loc nD τ sig) → Buf (Elt Ideal) ℓ)

-- BEGIN matrix
/-- The block index of this weight matrix is `(0, 0)` at every grid point (decided over the 128 points). -/
theorem index4 : ∀ t : Fin cfg0.N, win0_4.index t (0 : Fin 2) = 0 ∧ win0_4.index t (1 : Fin 2) = 0 :=
  (by decide +kernel : ∀ t : Fin grid0.N, _)

/-- So its staged block, at any point, is the whole argument array. -/
theorem whole4 (c : Dev nD) (t : Fin cfg0.N) : (iblk m c 4 t : S64x64.Idx → EReal) = V m c main_arg4 := by
  funext y
  have e : ((cfg0.win 4).blk t).view.emb y = y := by
    funext a; apply Fin.ext
    obtain ⟨e0, e1⟩ := index4 t
    match a with
    | ⟨0, _⟩ => show win0_4.index t (0 : Fin 2) * 64 + 1 * (y 0).val = (y 0).val; omega
    | ⟨1, _⟩ => show win0_4.index t (1 : Fin 2) * 64 + 1 * (y 1).val = (y 1).val; omega
  show V m c main_arg4 (((cfg0.win 4).blk t).view.emb y) = V m c main_arg4 y
  rw [e]
-- END matrix

-- BEGIN bias
/-- The block index of this bias is `0` at every grid point (decided over the 128 points). -/
theorem index5 : ∀ t : Fin cfg0.N, win0_5.index t (0 : Fin 1) = 0 :=
  (by decide +kernel : ∀ t : Fin grid0.N, _)

/-- So its staged block, at any point, is the whole argument array. -/
theorem whole5 (c : Dev nD) (t : Fin cfg0.N) : (iblk m c 5 t : S64.Idx → EReal) = V m c main_arg5 := by
  funext y
  have e : ((cfg0.win 5).blk t).view.emb y = y := by
    funext a; apply Fin.ext
    have e0 := index5 t
    match a with
    | ⟨0, _⟩ => show win0_5.index t (0 : Fin 1) * 64 + 1 * (y 0).val = (y 0).val; omega
  show V m c main_arg5 (((cfg0.win 5).blk t).view.emb y) = V m c main_arg5 y
  rw [e]
-- END bias

end Cert.GraphCell.Run

end
-- ==== Proof.WholeRest.lean ====
/- The remaining fourteen weight matrices and biases are staged whole, like the first two: the same two lemmas at the other
   window numbers. -/
import proofs.«128617_j68436008895010_1_alg».proof.Proof.Gen.KernelIdeal.Frame
import Idealize.ShloMosaic.PureOps.Ideal

noncomputable section

namespace Cert.GraphCell.Run

open Cert.KernelIdeal Cert.KernelIdeal.Gen
open Idealize.ShloMosaic Idealize.ShloMosaic.TcCoe Idealize.SL.Sem

variable (m : (ℓ : Loc nD τ sig) → Buf (Elt Ideal) ℓ)

/-- The block index of this weight matrix is `(0, 0)` at every grid point (decided over the 128 points). -/
theorem index6 : ∀ t : Fin cfg0.N, win0_6.index t (0 : Fin 2) = 0 ∧ win0_6.index t (1 : Fin 2) = 0 :=
  (by decide +kernel : ∀ t : Fin grid0.N, _)

/-- So its staged block, at any point, is the whole argument array. -/
theorem whole6 (c : Dev nD) (t : Fin cfg0.N) : (iblk m c 6 t : S64x64.Idx → EReal) = V m c main_arg6 := by
  funext y
  have e : ((cfg0.win 6).blk t).view.emb y = y := by
    funext a; apply Fin.ext
    obtain ⟨e0, e1⟩ := index6 t
    match a with
    | ⟨0, _⟩ => show win0_6.index t (0 : Fin 2) * 64 + 1 * (y 0).val = (y 0).val; omega
    | ⟨1, _⟩ => show win0_6.index t (1 : Fin 2) * 64 + 1 * (y 1).val = (y 1).val; omega
  show V m c main_arg6 (((cfg0.win 6).blk t).view.emb y) = V m c main_arg6 y
  rw [e]

/-- The block index of this bias is `0` at every grid point (decided over the 128 points). -/
theorem index7 : ∀ t : Fin cfg0.N, win0_7.index t (0 : Fin 1) = 0 :=
  (by decide +kernel : ∀ t : Fin grid0.N, _)

/-- So its staged block, at any point, is the whole argument array. -/
theorem whole7 (c : Dev nD) (t : Fin cfg0.N) : (iblk m c 7 t : S64.Idx → EReal) = V m c main_arg7 := by
  funext y
  have e : ((cfg0.win 7).blk t).view.emb y = y := by
    funext a; apply Fin.ext
    have e0 := index7 t
    match a with
    | ⟨0, _⟩ => show win0_7.index t (0 : Fin 1) * 64 + 1 * (y 0).val = (y 0).val; omega
  show V m c main_arg7 (((cfg0.win 7).blk t).view.emb y) = V m c main_arg7 y
  rw [e]

/-- The block index of this weight matrix is `(0, 0)` at every grid point (decided over the 128 points). -/
theorem index8 : ∀ t : Fin cfg0.N, win0_8.index t (0 : Fin 2) = 0 ∧ win0_8.index t (1 : Fin 2) = 0 :=
  (by decide +kernel : ∀ t : Fin grid0.N, _)

/-- So its staged block, at any point, is the whole argument array. -/
theorem whole8 (c : Dev nD) (t : Fin cfg0.N) : (iblk m c 8 t : S64x64.Idx → EReal) = V m c main_arg8 := by
  funext y
  have e : ((cfg0.win 8).blk t).view.emb y = y := by
    funext a; apply Fin.ext
    obtain ⟨e0, e1⟩ := index8 t
    match a with
    | ⟨0, _⟩ => show win0_8.index t (0 : Fin 2) * 64 + 1 * (y 0).val = (y 0).val; omega
    | ⟨1, _⟩ => show win0_8.index t (1 : Fin 2) * 64 + 1 * (y 1).val = (y 1).val; omega
  show V m c main_arg8 (((cfg0.win 8).blk t).view.emb y) = V m c main_arg8 y
  rw [e]

/-- The block index of this bias is `0` at every grid point (decided over the 128 points). -/
theorem index9 : ∀ t : Fin cfg0.N, win0_9.index t (0 : Fin 1) = 0 :=
  (by decide +kernel : ∀ t : Fin grid0.N, _)

/-- So its staged block, at any point, is the whole argument array. -/
theorem whole9 (c : Dev nD) (t : Fin cfg0.N) : (iblk m c 9 t : S64.Idx → EReal) = V m c main_arg9 := by
  funext y
  have e : ((cfg0.win 9).blk t).view.emb y = y := by
    funext a; apply Fin.ext
    have e0 := index9 t
    match a with
    | ⟨0, _⟩ => show win0_9.index t (0 : Fin 1) * 64 + 1 * (y 0).val = (y 0).val; omega
  show V m c main_arg9 (((cfg0.win 9).blk t).view.emb y) = V m c main_arg9 y
  rw [e]

/-- The block index of this weight matrix is `(0, 0)` at every grid point (decided over the 128 points). -/
theorem index10 : ∀ t : Fin cfg0.N, win0_10.index t (0 : Fin 2) = 0 ∧ win0_10.index t (1 : Fin 2) = 0 :=
  (by decide +kernel : ∀ t : Fin grid0.N, _)

/-- So its staged block, at any point, is the whole argument array. -/
theorem whole10 (c : Dev nD) (t : Fin cfg0.N) : (iblk m c 10 t : S64x64.Idx → EReal) = V m c main_arg10 := by
  funext y
  have e : ((cfg0.win 10).blk t).view.emb y = y := by
    funext a; apply Fin.ext
    obtain ⟨e0, e1⟩ := index10 t
    match a with
    | ⟨0, _⟩ => show win0_10.index t (0 : Fin 2) * 64 + 1 * (y 0).val = (y 0).val; omega
    | ⟨1, _⟩ => show win0_10.index t (1 : Fin 2) * 64 + 1 * (y 1).val = (y 1).val; omega
  show V m c main_arg10 (((cfg0.win 10).blk t).view.emb y) = V m c main_arg10 y
  rw [e]

/-- The block index of this bias is `0` at every grid point (decided over the 128 points). -/
theorem index11 : ∀ t : Fin cfg0.N, win0_11.index t (0 : Fin 1) = 0 :=
  (by decide +kernel : ∀ t : Fin grid0.N, _)

/-- So its staged block, at any point, is the whole argument array. -/
theorem whole11 (c : Dev nD) (t : Fin cfg0.N) : (iblk m c 11 t : S64.Idx → EReal) = V m c main_arg11 := by
  funext y
  have e : ((cfg0.win 11).blk t).view.emb y = y := by
    funext a; apply Fin.ext
    have e0 := index11 t
    match a with
    | ⟨0, _⟩ => show win0_11.index t (0 : Fin 1) * 64 + 1 * (y 0).val = (y 0).val; omega
  show V m c main_arg11 (((cfg0.win 11).blk t).view.emb y) = V m c main_arg11 y
  rw [e]

/-- The block index of this weight matrix is `(0, 0)` at every grid point (decided over the 128 points). -/
theorem index12 : ∀ t : Fin cfg0.N, win0_12.index t (0 : Fin 2) = 0 ∧ win0_12.index t (1 : Fin 2) = 0 :=
  (by decide +kernel : ∀ t : Fin grid0.N, _)

/-- So its staged block, at any point, is the whole argument array. -/
theorem whole12 (c : Dev nD) (t : Fin cfg0.N) : (iblk m c 12 t : S64x64.Idx → EReal) = V m c main_arg12 := by
  funext y
  have e : ((cfg0.win 12).blk t).view.emb y = y := by
    funext a; apply Fin.ext
    obtain ⟨e0, e1⟩ := index12 t
    match a with
    | ⟨0, _⟩ => show win0_12.index t (0 : Fin 2) * 64 + 1 * (y 0).val = (y 0).val; omega
    | ⟨1, _⟩ => show win0_12.index t (1 : Fin 2) * 64 + 1 * (y 1).val = (y 1).val; omega
  show V m c main_arg12 (((cfg0.win 12).blk t).view.emb y) = V m c main_arg12 y
  rw [e]

/-- The block index of this bias is `0` at every grid point (decided over the 128 points). -/
theorem index13 : ∀ t : Fin cfg0.N, win0_13.index t (0 : Fin 1) = 0 :=
  (by decide +kernel : ∀ t : Fin grid0.N, _)

/-- So its staged block, at any point, is the whole argument array. -/
theorem whole13 (c : Dev nD) (t : Fin cfg0.N) : (iblk m c 13 t : S64.Idx → EReal) = V m c main_arg13 := by
  funext y
  have e : ((cfg0.win 13).blk t).view.emb y = y := by
    funext a; apply Fin.ext
    have e0 := index13 t
    match a with
    | ⟨0, _⟩ => show win0_13.index t (0 : Fin 1) * 64 + 1 * (y 0).val = (y 0).val; omega
  show V m c main_arg13 (((cfg0.win 13).blk t).view.emb y) = V m c main_arg13 y
  rw [e]

/-- The block index of this weight matrix is `(0, 0)` at every grid point (decided over the 128 points). -/
theorem index14 : ∀ t : Fin cfg0.N, win0_14.index t (0 : Fin 2) = 0 ∧ win0_14.index t (1 : Fin 2) = 0 :=
  (by decide +kernel : ∀ t : Fin grid0.N, _)

/-- So its staged block, at any point, is the whole argument array. -/
theorem whole14 (c : Dev nD) (t : Fin cfg0.N) : (iblk m c 14 t : S64x64.Idx → EReal) = V m c main_arg14 := by
  funext y
  have e : ((cfg0.win 14).blk t).view.emb y = y := by
    funext a; apply Fin.ext
    obtain ⟨e0, e1⟩ := index14 t
    match a with
    | ⟨0, _⟩ => show win0_14.index t (0 : Fin 2) * 64 + 1 * (y 0).val = (y 0).val; omega
    | ⟨1, _⟩ => show win0_14.index t (1 : Fin 2) * 64 + 1 * (y 1).val = (y 1).val; omega
  show V m c main_arg14 (((cfg0.win 14).blk t).view.emb y) = V m c main_arg14 y
  rw [e]

/-- The block index of this bias is `0` at every grid point (decided over the 128 points). -/
theorem index15 : ∀ t : Fin cfg0.N, win0_15.index t (0 : Fin 1) = 0 :=
  (by decide +kernel : ∀ t : Fin grid0.N, _)

/-- So its staged block, at any point, is the whole argument array. -/
theorem whole15 (c : Dev nD) (t : Fin cfg0.N) : (iblk m c 15 t : S64.Idx → EReal) = V m c main_arg15 := by
  funext y
  have e : ((cfg0.win 15).blk t).view.emb y = y := by
    funext a; apply Fin.ext
    have e0 := index15 t
    match a with
    | ⟨0, _⟩ => show win0_15.index t (0 : Fin 1) * 64 + 1 * (y 0).val = (y 0).val; omega
  show V m c main_arg15 (((cfg0.win 15).blk t).view.emb y) = V m c main_arg15 y
  rw [e]

/-- The block index of this weight matrix is `(0, 0)` at every grid point (decided over the 128 points). -/
theorem index16 : ∀ t : Fin cfg0.N, win0_16.index t (0 : Fin 2) = 0 ∧ win0_16.index t (1 : Fin 2) = 0 :=
  (by decide +kernel : ∀ t : Fin grid0.N, _)

/-- So its staged block, at any point, is the whole argument array. -/
theorem whole16 (c : Dev nD) (t : Fin cfg0.N) : (iblk m c 16 t : S64x64.Idx → EReal) = V m c main_arg16 := by
  funext y
  have e : ((cfg0.win 16).blk t).view.emb y = y := by
    funext a; apply Fin.ext
    obtain ⟨e0, e1⟩ := index16 t
    match a with
    | ⟨0, _⟩ => show win0_16.index t (0 : Fin 2) * 64 + 1 * (y 0).val = (y 0).val; omega
    | ⟨1, _⟩ => show win0_16.index t (1 : Fin 2) * 64 + 1 * (y 1).val = (y 1).val; omega
  show V m c main_arg16 (((cfg0.win 16).blk t).view.emb y) = V m c main_arg16 y
  rw [e]

/-- The block index of this bias is `0` at every grid point (decided over the 128 points). -/
theorem index17 : ∀ t : Fin cfg0.N, win0_17.index t (0 : Fin 1) = 0 :=
  (by decide +kernel : ∀ t : Fin grid0.N, _)

/-- So its staged block, at any point, is the whole argument array. -/
theorem whole17 (c : Dev nD) (t : Fin cfg0.N) : (iblk m c 17 t : S64.Idx → EReal) = V m c main_arg17 := by
  funext y
  have e : ((cfg0.win 17).blk t).view.emb y = y := by
    funext a; apply Fin.ext
    have e0 := index17 t
    match a with
    | ⟨0, _⟩ => show win0_17.index t (0 : Fin 1) * 64 + 1 * (y 0).val = (y 0).val; omega
  show V m c main_arg17 (((cfg0.win 17).blk t).view.emb y) = V m c main_arg17 y
  rw [e]

/-- The block index of this weight matrix is `(0, 0)` at every grid point (decided over the 128 points). -/
theorem index18 : ∀ t : Fin cfg0.N, win0_18.index t (0 : Fin 2) = 0 ∧ win0_18.index t (1 : Fin 2) = 0 :=
  (by decide +kernel : ∀ t : Fin grid0.N, _)

/-- So its staged block, at any point, is the whole argument array. -/
theorem whole18 (c : Dev nD) (t : Fin cfg0.N) : (iblk m c 18 t : S64x64.Idx → EReal) = V m c main_arg18 := by
  funext y
  have e : ((cfg0.win 18).blk t).view.emb y = y := by
    funext a; apply Fin.ext
    obtain ⟨e0, e1⟩ := index18 t
    match a with
    | ⟨0, _⟩ => show win0_18.index t (0 : Fin 2) * 64 + 1 * (y 0).val = (y 0).val; omega
    | ⟨1, _⟩ => show win0_18.index t (1 : Fin 2) * 64 + 1 * (y 1).val = (y 1).val; omega
  show V m c main_arg18 (((cfg0.win 18).blk t).view.emb y) = V m c main_arg18 y
  rw [e]

/-- The block index of this bias is `0` at every grid point (decided over the 128 points). -/
theorem index19 : ∀ t : Fin cfg0.N, win0_19.index t (0 : Fin 1) = 0 :=
  (by decide +kernel : ∀ t : Fin grid0.N, _)

/-- So its staged block, at any point, is the whole argument array. -/
theorem whole19 (c : Dev nD) (t : Fin cfg0.N) : (iblk m c 19 t : S64.Idx → EReal) = V m c main_arg19 := by
  funext y
  have e : ((cfg0.win 19).blk t).view.emb y = y := by
    funext a; apply Fin.ext
    have e0 := index19 t
    match a with
    | ⟨0, _⟩ => show win0_19.index t (0 : Fin 1) * 64 + 1 * (y 0).val = (y 0).val; omega
  show V m c main_arg19 (((cfg0.win 19).blk t).view.emb y) = V m c main_arg19 y
  rw [e]

end Cert.GraphCell.Run

end
-- ==== Proof.Blocks.lean ====
/-
  From the blocks to the whole arrays.

  The grid has 128 points. At point `t` the pipeline stages rows `128·t … 128·t + 127` of `adj`, of the input and of the
  previous cell state, the whole of the previous hidden state and of every weight (their block index is `0` at every
  point), runs the body, and writes the two 128 × 64 results back to rows `128·t …` of the two result arrays. Since the
  body's value at row `p` of the block is the cell function of row `128·t + p` of the inputs (the rows of an LSTM step
  over a graph convolution are independent once `adj · hPrev` is a row-wise product), what point `t` writes back is
  block `t` of ONE function of the argument arrays, `newC` resp. `newH`; the 128 blocks tile the 16384 rows, so
  after the run the result arrays hold those functions.
-/
import proofs.«128617_j68436008895010_1_alg».proof.Proof.Gen.KernelIdeal.Value
import proofs.«128617_j68436008895010_1_alg».proof.Proof.Payload
import proofs.«128617_j68436008895010_1_alg».proof.Proof.WholeFirst
import proofs.«128617_j68436008895010_1_alg».proof.Proof.WholeRest

noncomputable section

namespace Cert.GraphCell.Run

open Cert.KernelIdeal Cert.KernelIdeal.Gen Cert.GraphCell Cert.GraphCell.Body
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## Which block of its array each window holds at a point

The three row-blocked inputs and the two results are at block index `(t, 0)` at point `t`; the previous hidden state is
at `(0, 0)` throughout. (The sixteen weight windows: Proof/WholeFirst.lean, Proof/WholeRest.lean.) Each is decided over
the 128 points. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index20 : ∀ t : Fin cfg0.N, win0_20.index t (0 : Fin 2) = t.val ∧ win0_20.index t (1 : Fin 2) = 0 :=
  (by decide +kernel : ∀ t : Fin grid0.N, _)
theorem index21 : ∀ t : Fin cfg0.N, win0_21.index t (0 : Fin 2) = t.val ∧ win0_21.index t (1 : Fin 2) = 0 :=
  (by decide +kernel : ∀ t : Fin grid0.N, _)

theorem hz2 : (![0, 0] : Fin 2 → Nat) = fun _ => 0 := funext fun a => by fin_cases a <;> rfl
theorem hz1 : (![0] : Fin 1 → Nat) = fun _ => 0 := funext fun a => by fin_cases a <;> rfl

/-- The row of the arrays that row `p` of point `t`'s blocks is: `128·t + p`. -/
def rowOf (t : Fin cfg0.N) (p : Fin 128) : Fin 16384 :=
  ⟨t.val * 128 + p.val, by have h : t.val < 128 := Nat.lt_of_lt_of_eq t.isLt N_0; omega⟩

/-- Row `p` of the staged block of `adj` is row `128·t + p` of `adj`. -/
theorem adj_block_at (c : Dev nD) (t : Fin cfg0.N) (p : Fin 128) (l : Fin 16384) :
    iblk m c 0 t (ix2 p l) = V m c main_arg3 (ix2 (rowOf t p) l) := by
  have e : ((cfg0.win 0).blk t).view.emb (ix2 p l) = ix2 (rowOf t p) l := by
    funext a; apply Fin.ext
    obtain ⟨e0, e1⟩ := index0 t
    match a with
    | ⟨0, _⟩ => show win0_0.index t (0 : Fin 2) * 128 + 1 * p.val = t.val * 128 + p.val; omega
    | ⟨1, _⟩ => show win0_0.index t (1 : Fin 2) * 16384 + 1 * l.val = l.val; omega
  show V m c main_arg3 (((cfg0.win 0).blk t).view.emb (ix2 p l)) = _
  rw [e]

/-- Row `p` of the staged block of the input is row `128·t + p` of the input. -/
theorem x_block_at (c : Dev nD) (t : Fin cfg0.N) (p : Fin 128) (k : Fin 64) :
    iblk m c 1 t (ix2 p k) = V m c main_arg0 (ix2 (rowOf t p) k) := by
  have e : ((cfg0.win 1).blk t).view.emb (ix2 p k) = ix2 (rowOf t p) k := by
    funext a; apply Fin.ext
    obtain ⟨e0, e1⟩ := index1 t
    match a with
    | ⟨0, _⟩ => show win0_1.index t (0 : Fin 2) * 128 + 1 * p.val = t.val * 128 + p.val; omega
    | ⟨1, _⟩ => show win0_1.index t (1 : Fin 2) * 64 + 1 * k.val = k.val; omega
  show V m c main_arg0 (((cfg0.win 1).blk t).view.emb (ix2 p k)) = _
  rw [e]

/-- Row `p` of the staged block of the previous cell state is row `128·t + p` of it. -/
theorem cprev_block_at (c : Dev nD) (t : Fin cfg0.N) (p : Fin 128) (q : Fin 64) :
    iblk m c 2 t (ix2 p q) = V m c main_arg2 (ix2 (rowOf t p) q) := by
  have e : ((cfg0.win 2).blk t).view.emb (ix2 p q) = ix2 (rowOf t p) q := by
    funext a; apply Fin.ext
    obtain ⟨e0, e1⟩ := index2 t
    match a with
    | ⟨0, _⟩ => show win0_2.index t (0 : Fin 2) * 128 + 1 * p.val = t.val * 128 + p.val; omega
    | ⟨1, _⟩ => show win0_2.index t (1 : Fin 2) * 64 + 1 * q.val = q.val; omega
  show V m c main_arg2 (((cfg0.win 2).blk t).view.emb (ix2 p q)) = _
  rw [e]

/-- The previous hidden state is staged whole at every point. -/
theorem whole3 (c : Dev nD) (t : Fin cfg0.N) : (iblk m c 3 t : S16384x64.Idx → EReal) = V m c main_arg1 := by
  funext y
  have e : ((cfg0.win 3).blk t).view.emb y = y := by
    funext a; apply Fin.ext
    obtain ⟨e0, e1⟩ := index3 t
    match a with
    | ⟨0, _⟩ => show win0_3.index t (0 : Fin 2) * 16384 + 1 * (y 0).val = (y 0).val; omega
    | ⟨1, _⟩ => show win0_3.index t (1 : Fin 2) * 64 + 1 * (y 1).val = (y 1).val; omega
  show V m c main_arg1 (((cfg0.win 3).blk t).view.emb y) = V m c main_arg1 y
  rw [e]

/-! ## The two result arrays as functions of the arguments -/

/-- The new cell state of the argument arrays as the region finds them. -/
def cellArr (c : Dev nD) : Mat 16384 64 := newC (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg16) (V m c main_arg17) (V m c main_arg18) (V m c main_arg19)

/-- The new hidden state of the argument arrays as the region finds them. -/
def hiddenArr (c : Dev nD) : Mat 16384 64 := newH (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)

/-- Entry `(p, q)` of point `t`'s block of the cell-state result is entry `(128·t + p, q)` of the array. -/
theorem cell_emb (t : Fin cfg0.N) (p : Fin 128) (q : Fin 64) :
    ((cfg0.win 21).blk t).view.emb (ix2 p q) = ix2 (rowOf t p) q := by
  funext a; apply Fin.ext
  obtain ⟨e0, e1⟩ := index21 t
  match a with
  | ⟨0, _⟩ => show win0_21.index t (0 : Fin 2) * 128 + 1 * p.val = t.val * 128 + p.val; omega
  | ⟨1, _⟩ => show win0_21.index t (1 : Fin 2) * 64 + 1 * q.val = q.val; omega

/-- The same for the hidden-state result. -/
theorem hidden_emb (t : Fin cfg0.N) (p : Fin 128) (q : Fin 64) :
    ((cfg0.win 20).blk t).view.emb (ix2 p q) = ix2 (rowOf t p) q := by
  funext a; apply Fin.ext
  obtain ⟨e0, e1⟩ := index20 t
  match a with
  | ⟨0, _⟩ => show win0_20.index t (0 : Fin 2) * 128 + 1 * p.val = t.val * 128 + p.val; omega
  | ⟨1, _⟩ => show win0_20.index t (1 : Fin 2) * 64 + 1 * q.val = q.val; omega

/-- WHAT POINT `t` WRITES BACK to the cell-state result is block `t` of `cellArr`. -/
theorem cell_flushed (c : Dev nD) (t : Fin cfg0.N) :
    (dats m 0 c).flushed 21 t = ((cfg0.win 21).blk t).view.read (Elt Ideal) (cellArr m c) := by
  rw [Cert.KernelIdeal.Value.flushed21]
  unfold out0_21
  rw [View.canon_unit_zero hz2]
  simp only [View.ld_unit_zero (S := S128x16384) hz2, View.ld_unit_zero (S := S128x64) hz2, View.ld_unit_zero (S := S16384x64) hz2, View.ld_unit_zero (S := S64x64) hz2, View.ld_unit_zero (S := S64) hz1]
  funext j
  obtain ⟨p, q, rfl⟩ : ∃ (p : Fin 128) (q : Fin 64), j = ix2 p q := ⟨j 0, j 1, eq_ix2 j⟩
  show _ = cellArr m c (((cfg0.win 21).blk t).view.emb (ix2 p q))
  rw [cell_emb t p q]
  refine (cell_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 16 t) (iblk m c 17 t) (iblk m c 18 t) (iblk m c 19 t) p q).trans ?_
  simp only [x_block_at m c t p, adj_block_at m c t p, cprev_block_at m c t p q, whole3 m c t, whole4 m c t, whole5 m c t, whole6 m c t, whole7 m c t, whole8 m c t, whole9 m c t, whole10 m c t, whole11 m c t, whole16 m c t, whole17 m c t, whole18 m c t, whole19 m c t]
  rfl

/-- WHAT POINT `t` WRITES BACK to the hidden-state result is block `t` of `hiddenArr`. -/
theorem hidden_flushed (c : Dev nD) (t : Fin cfg0.N) :
    (dats m 0 c).flushed 20 t = ((cfg0.win 20).blk t).view.read (Elt Ideal) (hiddenArr m c) := by
  rw [Cert.KernelIdeal.Value.flushed20]
  unfold out0_20
  rw [View.canon_unit_zero hz2]
  simp only [View.ld_unit_zero (S := S128x16384) hz2, View.ld_unit_zero (S := S128x64) hz2, View.ld_unit_zero (S := S16384x64) hz2, View.ld_unit_zero (S := S64x64) hz2, View.ld_unit_zero (S := S64) hz1]
  funext j
  obtain ⟨p, q, rfl⟩ : ∃ (p : Fin 128) (q : Fin 64), j = ix2 p q := ⟨j 0, j 1, eq_ix2 j⟩
  show _ = hiddenArr m c (((cfg0.win 20).blk t).view.emb (ix2 p q))
  rw [hidden_emb t p q]
  refine (hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  simp only [x_block_at m c t p, adj_block_at m c t p, cprev_block_at m c t p q, whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t, whole19 m c t]
  rfl

/-! ## The blocks tile the rows -/

/-- An index of the array is in point `t`'s block iff each coordinate is in the block's range on its axis. -/
theorem mem_block21 (t : Fin cfg0.N) (i : S16384x64.Idx) :
    i ∈ ((cfg0.win 21).blk t).view.set ↔ ∀ a : Fin 2, win0_21.index t a * S128x64.size a ≤ (i a).val ∧ (i a).val < win0_21.index t a * S128x64.size a + S128x64.size a := by
  show i ∈ ((View.whole main_v0_1).slice (win0_21.rect t)).set ↔ _
  rw [View.set_slice_whole, Rect.mem_set_unit]
  exact Iff.rfl

theorem mem_block20 (t : Fin cfg0.N) (i : S16384x64.Idx) :
    i ∈ ((cfg0.win 20).blk t).view.set ↔ ∀ a : Fin 2, win0_20.index t a * S128x64.size a ≤ (i a).val ∧ (i a).val < win0_20.index t a * S128x64.size a + S128x64.size a := by
  show i ∈ ((View.whole main_v0_0).slice (win0_20.rect t)).set ↔ _
  rw [View.set_slice_whole, Rect.mem_set_unit]
  exact Iff.rfl

/-- Row `r` lies in the block of point `r / 128`, which writes back. -/
theorem cover21 (i : S16384x64.Idx) : ∃ t : Fin cfg0.N, (cfg0.win 21).flush t = true ∧ i ∈ ((cfg0.win 21).blk t).view.set := by
  have hi0 : (i 0).val < 16384 := (i 0).isLt
  have hi1 : (i 1).val < 64 := (i 1).isLt
  obtain ⟨t, ht⟩ : ∃ t : Fin cfg0.N, t.val = (i 0).val / 128 :=
    ⟨⟨(i 0).val / 128, Nat.lt_of_lt_of_eq (by omega : (i 0).val / 128 < 128) N_0.symm⟩, rfl⟩
  refine ⟨t, flush0_21 t, ?_⟩
  rw [mem_block21]
  obtain ⟨e0, e1⟩ := index21 t
  intro a
  match a with
  | ⟨0, _⟩ => show win0_21.index t (0 : Fin 2) * 128 ≤ (i 0).val ∧ (i 0).val < win0_21.index t (0 : Fin 2) * 128 + 128; omega
  | ⟨1, _⟩ => show win0_21.index t (1 : Fin 2) * 64 ≤ (i 1).val ∧ (i 1).val < win0_21.index t (1 : Fin 2) * 64 + 64; omega

theorem cover20 (i : S16384x64.Idx) : ∃ t : Fin cfg0.N, (cfg0.win 20).flush t = true ∧ i ∈ ((cfg0.win 20).blk t).view.set := by
  have hi0 : (i 0).val < 16384 := (i 0).isLt
  have hi1 : (i 1).val < 64 := (i 1).isLt
  obtain ⟨t, ht⟩ : ∃ t : Fin cfg0.N, t.val = (i 0).val / 128 :=
    ⟨⟨(i 0).val / 128, Nat.lt_of_lt_of_eq (by omega : (i 0).val / 128 < 128) N_0.symm⟩, rfl⟩
  refine ⟨t, flush0_20 t, ?_⟩
  rw [mem_block20]
  obtain ⟨e0, e1⟩ := index20 t
  intro a
  match a with
  | ⟨0, _⟩ => show win0_20.index t (0 : Fin 2) * 128 ≤ (i 0).val ∧ (i 0).val < win0_20.index t (0 : Fin 2) * 128 + 128; omega
  | ⟨1, _⟩ => show win0_20.index t (1 : Fin 2) * 64 ≤ (i 1).val ∧ (i 1).val < win0_20.index t (1 : Fin 2) * 64 + 64; omega

/-- THE CELL-STATE ARRAY after the run. -/
theorem cell_final (c : Dev nD) : (dats m 0 c).arrAt 21 cfg0.N = cellArr m c :=
  (dats m 0 c).arrAt_eq_of_cover 21 (cellArr m c) (fun t _ => cell_flushed m c t) cover21

/-- THE HIDDEN-STATE ARRAY after the run. -/
theorem hidden_final (c : Dev nD) : (dats m 0 c).arrAt 20 cfg0.N = hiddenArr m c :=
  (dats m 0 c).arrAt_eq_of_cover 20 (hiddenArr m c) (fun t _ => hidden_flushed m c t) cover20

/-! ## The run, read -/

/-- Every weakly fair execution of the idealized kernel's program ends with the two results at `hiddenArr` and
    `cellArr` of the arguments, and the arguments unchanged. -/
theorem run : θ_run defs (onTc (τ := τ) (main (F := Ideal))) ⟨m, fun _ => 0, ρ⟩ fun r => ∀ c : Dev nD,
      r.2.mem ((c : Thread nD τ).loc main_v0_0) = hiddenArr m c
      ∧ r.2.mem ((c : Thread nD τ).loc main_v0_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (hidden_final m c), (h c).2.1.trans (cell_final m c), (h c).2.2⟩)
    (Cert.KernelIdeal.Value.run_blocks m ρ)

end Cert.GraphCell.Run

end
-- ==== Proof.lean ====
/-
  One step of a graph-convolution LSTM over 16384 nodes with 64 features: a fused kernel against plain array code.

  Both programs compute, from the adjacency `adj`, the step's input `x`, the previous hidden and cell states and eight
  linear layers `(w, b)`,

    g     = adj · hPrev
    i, f, o = σ(x · wxᵀ + bx + g · whᵀ + bh)   at the input, forget and output weights,   u = tanh(the same at the candidate's)
    cNew  = f · cPrev + i · u,        hNew = o · tanh(cNew)

  and return `(hNew, cNew)`. The kernel does it in 128 blocks of 128 rows, with its matrix products on operands narrowed
  to a shorter float format and contracting the weights' last axis; the reference does it on whole arrays, transposing the
  weights and spelling the sigmoid as `1 / (1 + e^(-z))`. Over the extended reals a change of float format is the
  identity, a product into a zero accumulator is the sum of products, and that spelling of the sigmoid is the logistic
  function, so the two agree entry by entry: both are `newH` and `newC` (Proof/Cell.lean) of the arguments. No law of
  arithmetic beyond the definitions is used — the two sides form the same sums in the same order — so the inputs'
  finiteness is never opened.

  Proof/RefRead.lean reads the reference's two results as `newH` and `newC`; Proof/Payload.lean reads the kernel body's
  two stored values at an entry of a block; Proof/Blocks.lean carries that from the blocks to the whole arrays. Here the
  two runs are set side by side. Each program's termination, freedom from faults and unchanged arguments come with its
  run. The idealized kernel is the kernel's own text read over the extended reals (no operation was rewritten), so there
  is nothing to preserve.
-/
import proofs.«128617_j68436008895010_1_alg».proof.Defs
import proofs.«128617_j68436008895010_1_alg».proof.Proof.Gen.Kernel
import proofs.«128617_j68436008895010_1_alg».proof.Proof.Gen.Kernel.Skeleton
import proofs.«128617_j68436008895010_1_alg».proof.Proof.Gen.Kernel.Launch
import proofs.«128617_j68436008895010_1_alg».proof.Proof.Gen.Kernel.Points
import proofs.«128617_j68436008895010_1_alg».proof.Proof.Gen.Kernel.Frame
import proofs.«128617_j68436008895010_1_alg».proof.Proof.Gen.KernelIdeal
import proofs.«128617_j68436008895010_1_alg».proof.Proof.Gen.KernelIdeal.Skeleton
import proofs.«128617_j68436008895010_1_alg».proof.Proof.Gen.KernelIdeal.Launch
import proofs.«128617_j68436008895010_1_alg».proof.Proof.Gen.KernelIdeal.Points
import proofs.«128617_j68436008895010_1_alg».proof.Proof.Gen.KernelIdeal.Frame
import proofs.«128617_j68436008895010_1_alg».proof.Proof.Gen.KernelIdeal.Value
import proofs.«128617_j68436008895010_1_alg».proof.Proof.Gen.ReferenceIdeal
import proofs.«128617_j68436008895010_1_alg».proof.Proof.Gen.ReferenceIdeal.Run
import proofs.«128617_j68436008895010_1_alg».proof.Proof.Gen.ReferenceIdeal.Read
import proofs.«128617_j68436008895010_1_alg».proof.Proof.Gen.Pre_finite_inputs
import proofs.«128617_j68436008895010_1_alg».proof.Proof.Cell
import proofs.«128617_j68436008895010_1_alg».proof.Proof.RefRead
import proofs.«128617_j68436008895010_1_alg».proof.Proof.Payload
import proofs.«128617_j68436008895010_1_alg».proof.Proof.Blocks
import Idealize.ShloMosaic.Adequacy
import Idealize.ShloMosaic.Init

noncomputable section

namespace Cert.Proof

open Idealize.ShloMosaic Idealize.SL.Sem Cert.GraphCell

/-- The kernel's program runs to the end, without a fault, and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the twenty arguments, the kernel's two result arrays end at `newH` and `newC` of its
    arguments (Proof/Blocks.lean) and the reference's at `newH` and `newC` of its own (Proof/RefRead.lean): the same
    arrays. -/
theorem algebraic : Cert.algebraic_KernelIdeal_ReferenceIdeal := by
  intro m ρ m' ρ' _ hagree
  refine ⟨fun c => Run.hiddenArr m c, fun c => Run.cellArr m c, Run.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19⟩ := hagree c
  refine ⟨(h c).1.trans ?_, (h c).2.1.trans ?_, (h c).2.2⟩
  · rw [Cert.ReferenceIdeal.Read.val_main_v68_eq, Ref.hidden_eq, a0, a1, a2, a3, a4, a5, a6, a7, a8, a9, a10, a11, a12, a13, a14, a15, a16, a17, a18, a19]
    rfl
  · rw [Cert.ReferenceIdeal.Read.val_main_v66_eq, Ref.cell_eq, a0, a1, a2, a3, a4, a5, a6, a7, a8, a9, a10, a11, a16, a17, a18, a19]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
